-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S64x16384 : Shape := ⟨2, ![64, 16384]⟩
abbrev S1x64 : Shape := ⟨2, ![1, 64]⟩
abbrev S128x16384 : Shape := ⟨2, ![128, 16384]⟩
abbrev S64x128 : Shape := ⟨2, ![64, 128]⟩
abbrev S64x1 : Shape := ⟨2, ![64, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S64x16384, .f32⟩
  | .hbm, ⟨5, _⟩ => ⟨S1x64, .f32⟩
  | .hbm, ⟨6, _⟩ => ⟨S64x16384, .f32⟩
  | .hbm, ⟨7, _⟩ => ⟨S16384x64, .f32⟩
  | .local _ .vmem, ⟨0, _⟩ => ⟨S64x16384, .f32⟩
  | .local _ .vmem, ⟨1, _⟩ => ⟨S64x64, .f32⟩
  | .local _ .vmem, ⟨2, _⟩ => ⟨S1x64, .f32⟩
  | .local _ .vmem, ⟨3, _⟩ => ⟨S128x16384, .f32⟩
  | .local _ .vmem, ⟨4, _⟩ => ⟨S128x16384, .f32⟩
  | .local _ .vmem, ⟨5, _⟩ => ⟨S64x128, .f32⟩
  | .local _ .vmem, ⟨6, _⟩ => ⟨S64x128, .f32⟩
  | .local _ .vmem, ⟨7, _⟩ => ⟨S64x16384, .bf16⟩
  | .local _ .vmem, ⟨8, _⟩ => ⟨S64x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16384x64_S64x16384_1_0 : S16384x64.Transposes [1, 0] S64x16384
  shapeCasts_S64_S1x64 : S64.ShapeCasts S1x64
  transposes_S64x16384_S16384x64_1_0 : S64x16384.Transposes [1, 0] S16384x64
  inb_S64x64_S64x64_0_0 : ∀ a, (![0, 0] : Fin 2 → Nat) a + S64x64.size a ≤ S64x64.size a
  h_S64x64 : 0 < S64x64.numel
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  bitsLt_bf16_f32 : FTy.bits .bf16 < FTy.bits .f32
  packedbf16_S64x16384_S64x16384_0_0 : (Rect.unit (s := S64x16384) ![0, 0] S64x16384.size inb_S64x16384_S64x16384_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S128x16384_S128x16384_0_0 : ∀ a, (![0, 0] : Fin 2 → Nat) a + S128x16384.size a ≤ S128x16384.size a
  h_S128x16384 : 0 < S128x16384.numel
  broadcasts_S64x1_S64x128 : S64x1.Broadcasts S64x128
  inb_S64x128_S64x128_0_0 : ∀ a, (![0, 0] : Fin 2 → Nat) a + S64x128.size a ≤ S64x128.size a
  h_S64x128 : 0 < S64x128.numel
  dot_S64x64_S64x16384_S64x16384_0_0_1_1_n_n_wf : DotDims.WF S64x64 S64x16384 S64x16384 [0] [0] [1] [1] [] []
  dot_S64x16384_S128x16384_S64x128_1_1_0_0_n_n_wf : DotDims.WF S64x16384 S128x16384 S64x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S64x16384.size a
  hwx0_0 : ∀ i : grid0.Coords, EltTy.bits .f32 = 32 ∨ (Rect.block (s := S64x16384) S64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16384.size a ≤ S16384x16384.size a
  hwx0_3 : ∀ i : grid0.Coords, EltTy.bits .f32 = 32 ∨ (Rect.block (s := S16384x16384) S128x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x16384.size a
  hwx0_4 : ∀ i : grid0.Coords, EltTy.bits .f32 = 32 ∨ (Rect.block (s := S64x16384) S64x128.size (cc0_transform_4 i) (hinb0_4 i)).WholeWords (EltTy.packing .f32)

variable [Facts₀]

def dot_S64x64_S64x16384_S64x16384_0_0_1_1_n_n : DotDims S64x64 S64x16384 S64x16384 where
  lhsContracting := [0]
  rhsContracting := [0]
  lhsNonContracting := [1]
  rhsNonContracting := [1]
  lhsBatch := []
  rhsBatch := []
  wf := dot_S64x64_S64x16384_S64x16384_0_0_1_1_n_n_wf
def dot_S64x16384_S128x16384_S64x128_1_1_0_0_n_n : DotDims S64x16384 S128x16384 S64x128 where
  lhsContracting := [1]
  rhsContracting := [1]
  lhsNonContracting := [0]
  rhsNonContracting := [0]
  lhsBatch := []
  rhsBatch := []
  wf := dot_S64x16384_S128x16384_S64x128_1_1_0_0_n_n_wf

abbrev win0_0 : Pipeline.Window sig grid0 :=
  Pipeline.Window.ofSpec (Memref.whole main_call0_v0) S64x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.LayerSpec.lean ====
/-
  A graph-convolution layer over the extended reals, as ONE function of its four arrays: node features
  `x` (16384 × 64), a dense adjacency `adj` (16384 × 16384), weights `w` (64 × 64) and a bias `b` (64).
  The entry at node `p`, feature `o` is

      (∑ n, adj[p, n] · (∑ d, x[n, d] · w[d, o])) + b[o].

  The same entry can be computed in a transposed arrangement, feature-major, as

      (∑ n, (∑ d, w[d, o] · x[n, d]) · adj[p, n]) + b[o].

  The two differ only in the order of the factors inside each sum, so they agree because multiplication of
  extended reals commutes. Nothing is distributed over a sum and nothing is cancelled, so the identity holds at
  the infinities as well: no finiteness of the inputs is used.
-/
import Idealize.ShloMosaic.PureOps.Ideal
import Idealize.ShloMosaic.Lib.ValueIdx

noncomputable section

open scoped BigOperators

namespace Cert.Layer

open Idealize.ShloMosaic Idealize.ShloMosaic.ValueIdx

/-- The shapes of the four arrays, of the result, and of the feature-major result. -/
abbrev SFeat : Shape := ⟨2, ![16384, 64]⟩
abbrev SAdj : Shape := ⟨2, ![16384, 16384]⟩
abbrev SWt : Shape := ⟨2, ![64, 64]⟩
abbrev SBias : Shape := ⟨1, ![64]⟩
abbrev SFeatT : Shape := ⟨2, ![64, 16384]⟩

variable (x : SFeat.Idx → EReal) (adj : SAdj.Idx → EReal) (w : SWt.Idx → EReal) (b : SBias.Idx → EReal)

/-- The support `x · w` at node `n`, output feature `o`: the row of `x` against the column of `w`. -/
def support (n : Fin 16384) (o : Fin 64) : EReal :=
  ∑ d : Fin 64, x (ix2 n d) * w (ix2 d o)

/-- The layer's entry at node `p`, feature `o`: the adjacency row `p` against the support's column `o`, plus the bias. -/
def entry (p : Fin 16384) (o : Fin 64) : EReal :=
  (∑ n : Fin 16384, adj (ix2 p n) * support x w n o) + b (ix1 o)

/-- The layer as one function of the four arrays, node-major. -/
def layer : SFeat.Idx → EReal := fun i => entry x adj w b (i 0) (i 1)

/-- The support in the feature-major arrangement: the column of `w` against the row of `x`. -/
def supportT (o : Fin 64) (n : Fin 16384) : EReal :=
  ∑ d : Fin 64, w (ix2 d o) * x (ix2 n d)

/-- The entry in the feature-major arrangement: the support's row `o` against the adjacency row `p`, plus the bias. -/
def entryT (o : Fin 64) (p : Fin 16384) : EReal :=
  (∑ n : Fin 16384, supportT x w o n * adj (ix2 p n)) + b (ix1 o)

/-- The layer, feature-major. -/
def layerT : SFeatT.Idx → EReal := fun j => entryT x adj w b (j 0) (j 1)

/-- The two supports are one number: the factors of each product commute. -/
theorem supportT_eq (o : Fin 64) (n : Fin 16384) : supportT x w o n = support x w n o :=
  Finset.sum_congr rfl fun _ _ => mul_comm _ _

/-- So are the two entries: the supports agree term by term and the factors of each product commute. -/
theorem entryT_eq (o : Fin 64) (p : Fin 16384) : entryT x adj w b o p = entry x adj w b p o := by
  unfold entryT entry
  exact congrArg (· + b (ix1 o)) (Finset.sum_congr rfl fun n _ => by rw [supportT_eq, mul_comm])

/-- The feature-major layer read at `(o, p)` is the node-major layer read at `(p, o)`. -/
theorem layerT_apply (o : Fin 64) (p : Fin 16384) :
    layerT x adj w b (ix2 o p) = layer x adj w b (ix2 p o) :=
  entryT_eq x adj w b o p

end Cert.Layer

end
-- ==== Proof.RefIsLayer.lean ====
/-
  The reference computes the layer. Its five host operations are: the support `x · w` (a matrix product
  contracting the feature axis), the adjacency against the support (a matrix product contracting the node axis),
  the bias broadcast first to one row and then down every row, and the sum of the two. Read at an entry
  `(p, o)` the two products are the nested sums of the layer's definition, and the twice-broadcast bias is
  `b[o]`; so the reference's result is the layer, entry by entry, with no algebra at all.
-/
import proofs.«110051_g12386685681967_cont_sun_m_1327_21_alg».proof.Proof.Gen.ReferenceIdeal.Read
import proofs.«110051_g12386685681967_cont_sun_m_1327_21_alg».proof.Proof.LayerSpec

noncomputable section

open scoped BigOperators

namespace Cert.ReferenceIdeal.AsLayer

open Cert.ReferenceIdeal Cert.ReferenceIdeal.Gen Cert.ReferenceIdeal.Read
open Idealize.ShloMosaic Idealize.ShloMosaic.ValueIdx

/-- The adjacency operand of the outer product at entry `(p, o)`, term `k`: row `p`, column `k`. -/
theorem adj_at (p : Fin 16384) (o : Fin 64) (k : Fin 16384) : lidx_main_v1 (ix2 p o) k = ix2 p k :=
  funext fun a => match a with | ⟨0, _⟩ => rfl | ⟨1, _⟩ => rfl

/-- The support operand of the outer product at entry `(p, o)`, term `k`: node `k`, feature `o`. -/
theorem support_at (p : Fin 16384) (o : Fin 64) (k : Fin 16384) : ridx_main_v1 (ix2 p o) k = ix2 k o :=
  funext fun a => match a with | ⟨0, _⟩ => rfl | ⟨1, _⟩ => rfl

/-- The feature operand of the inner product at entry `(n, o)`, term `d`: node `n`, input feature `d`. -/
theorem feat_at (n : Fin 16384) (o : Fin 64) (d : Fin 64) : lidx_main_v0 (ix2 n o) d = ix2 n d :=
  funext fun a => match a with | ⟨0, _⟩ => rfl | ⟨1, _⟩ => rfl

/-- The weight operand of the inner product at entry `(n, o)`, term `d`: input feature `d`, output feature `o`. -/
theorem weight_at (n : Fin 16384) (o : Fin 64) (d : Fin 64) : ridx_main_v0 (ix2 n o) d = ix2 d o :=
  funext fun a => match a with | ⟨0, _⟩ => rfl | ⟨1, _⟩ => rfl

/-- The twice-broadcast bias at entry `(p, o)` reads the bias at feature `o`. -/
theorem bias_at (p : Fin 16384) (o : Fin 64) : idx_main_v2 (idx_main_v3 (ix2 p o)) = ix1 o :=
  funext fun a => match a with | ⟨0, _⟩ => rfl

/-- The reference's result, as a function of the four argument arrays, is the layer. -/
theorem result_eq (x : (⟨S16384x64, .f32⟩ : BufTy).Contents (Elt Ideal)) (adj : (⟨S16384x16384, .f32⟩ : BufTy).Contents (Elt Ideal))
    (w : (⟨S64x64, .f32⟩ : BufTy).Contents (Elt Ideal)) (b : (⟨S64, .f32⟩ : BufTy).Contents (Elt Ideal)) :
    val_main_v4 (F := Ideal) x adj w b = Cert.Layer.layer x adj w b := by
  funext i
  obtain ⟨p, o, rfl⟩ : ∃ (p : Fin 16384) (o : Fin 64), i = ix2 p o := ⟨i 0, i 1, eq_ix2 i⟩
  rw [val_main_v4_apply, val_main_v1_apply, val_main_v3_apply, val_main_v2_apply, bias_at, Ideal.addf_def]
  show _ = Cert.Layer.entry x adj w b p o
  unfold Cert.Layer.entry
  refine congrArg (· + b (ix1 o)) (Finset.sum_congr rfl fun k _ => ?_)
  rw [adj_at, support_at, val_main_v0_apply]
  unfold Cert.Layer.support
  refine congrArg (adj (ix2 p k) * ·) (Finset.sum_congr rfl fun d _ => ?_)
  rw [feat_at, weight_at]

end Cert.ReferenceIdeal.AsLayer

end
-- ==== Proof.FoundPieces.lean ====
/-
  What one run of the kernel body leaves behind, as values of what it loaded.

  The body has two cases. At the grid's first point it first fills its two carried buffers — the support,
  feature-major (the weights' columns against the transposed features, narrowed to the carried buffer's
  format), and the bias as a column — and then computes its output block from them. At every other point it
  only computes the output block, from whatever the carried buffers hold. Every store covers its whole buffer
  and every load reads a whole buffer, so each buffer ends at exactly one stored value:

    * first point, support buffer:  the support of the loaded weights and transposed features;
    * first point, bias buffer:     the loaded bias row, transposed;
    * first point, output block:    the block product of those two fresh values with the loaded adjacency rows;
    * later points, output block:   the same block product of the carried values with the loaded adjacency rows
                                    (the carried buffers are left as they were).

  These hold for any float values (no arithmetic is interpreted here).
-/
import proofs.«110051_g12386685681967_cont_sun_m_1327_21_alg».proof.Proof.Gen.KernelIdeal.Frame
import Idealize.ShloMosaic.Lib.Pipeline.Value
import Idealize.ShloMosaic.Lib.Tactic

noncomputable section

namespace Cert.KernelIdeal.Found

open Cert.KernelIdeal Cert.KernelIdeal.Gen
open Idealize.ShloMosaic Idealize.ShloMosaic.TcCoe Idealize.SL.Sem Idealize.ShloMosaic.Tactic

variable {F : FTy → Type} [FloatOps F]

/-- Every buffer is read and written from its origin. -/
theorem origin : (![0, 0] : Fin 2 → Nat) = fun _ => 0 := funext fun a => by fin_cases a <;> rfl

/-- First point: the support buffer ends at the support of the loaded weights `x1` and transposed features `x0`. -/
theorem support_first (c : Dev nD) (i : grid0.Coords) (a1 : Memref sig .tc .vmem S64x16384 .f32) (h1 : a1.IsWhole) (a2 : Memref sig .tc .vmem S64x64 .f32) (h2 : a2.IsWhole) (a3 : Memref sig .tc .vmem S1x64 .f32) (h3 : a3.IsWhole) (a4 : Memref sig .tc .vmem S128x16384 .f32) (h4 : a4.IsWhole) (a5 : Memref sig .tc .vmem S64x128 .f32) (h5 : a5.IsWhole) (a6 : Memref sig .tc .vmem S64x16384 .bf16) (h6 : a6.IsWhole) (a7 : Memref sig .tc .vmem S64x1 .f32) (h7 : a7.IsWhole) (hc : cond0_0 i)
    (x0 : Vec F S64x16384 .f32) (x1 : Vec F S64x64 .f32) (x2 : Vec F S1x64 .f32) (x3 : Vec F S128x16384 .f32) :
    sout0_A_0 c i a1 h1 a2 h2 a3 h3 a4 h4 a5 h5 a6 h6 a7 h7 hc x0 x1 x2 x3 = k0_pay1 x1 x0 := by
  unfold sout0_A_0
  rw [View.read_writes_eq_canon _ _ _ (scover0_A_0 c i a1 h1 a2 h2 a3 h3 a4 h4 a5 h5 a6 h6 a7 h7 hc x0 x1 x2 x3)]
  unfold kernelRun0_A
  dsimp only
  sl_unfold_words
  rw [View.canon_unit_zero origin]
  simp only [View.readAt_eq_ld, h1.read_unread, h2.read_unread, View.ld_unit_zero (S := S64x64) origin,
    View.ld_unit_zero (S := S64x16384) origin]

/-- First point: the bias buffer ends at the loaded bias row `x2` as a column. -/
theorem bias_first (c : Dev nD) (i : grid0.Coords) (a1 : Memref sig .tc .vmem S64x16384 .f32) (h1 : a1.IsWhole) (a2 : Memref sig .tc .vmem S64x64 .f32) (h2 : a2.IsWhole) (a3 : Memref sig .tc .vmem S1x64 .f32) (h3 : a3.IsWhole) (a4 : Memref sig .tc .vmem S128x16384 .f32) (h4 : a4.IsWhole) (a5 : Memref sig .tc .vmem S64x128 .f32) (h5 : a5.IsWhole) (a6 : Memref sig .tc .vmem S64x16384 .bf16) (h6 : a6.IsWhole) (a7 : Memref sig .tc .vmem S64x1 .f32) (h7 : a7.IsWhole) (hc : cond0_0 i)
    (x0 : Vec F S64x16384 .f32) (x1 : Vec F S64x64 .f32) (x2 : Vec F S1x64 .f32) (x3 : Vec F S128x16384 .f32) :
    sout0_A_1 c i a1 h1 a2 h2 a3 h3 a4 h4 a5 h5 a6 h6 a7 h7 hc x0 x1 x2 x3 = k0_pay2 x2 := by
  unfold sout0_A_1
  rw [View.read_writes_eq_canon _ _ _ (scover0_A_1 c i a1 h1 a2 h2 a3 h3 a4 h4 a5 h5 a6 h6 a7 h7 hc x0 x1 x2 x3)]
  unfold kernelRun0_A
  dsimp only
  sl_unfold_words
  rw [View.canon_unit_zero origin]
  simp only [View.readAt_eq_ld, h3.read_unread, View.ld_unit_zero (S := S1x64) origin]

/-- First point: the output block is the block product of the two values just stored with the adjacency rows `x3`. -/
theorem block_first (c : Dev nD) (i : grid0.Coords) (a1 : Memref sig .tc .vmem S64x16384 .f32) (h1 : a1.IsWhole) (a2 : Memref sig .tc .vmem S64x64 .f32) (h2 : a2.IsWhole) (a3 : Memref sig .tc .vmem S1x64 .f32) (h3 : a3.IsWhole) (a4 : Memref sig .tc .vmem S128x16384 .f32) (h4 : a4.IsWhole) (a5 : Memref sig .tc .vmem S64x128 .f32) (h5 : a5.IsWhole) (a6 : Memref sig .tc .vmem S64x16384 .bf16) (h6 : a6.IsWhole) (a7 : Memref sig .tc .vmem S64x1 .f32) (h7 : a7.IsWhole) (hc : cond0_0 i)
    (x0 : Vec F S64x16384 .f32) (x1 : Vec F S64x64 .f32) (x2 : Vec F S1x64 .f32) (x3 : Vec F S128x16384 .f32) :
    out0_A_4 c i a1 h1 a2 h2 a3 h3 a4 h4 a5 h5 a6 h6 a7 h7 hc x0 x1 x2 x3 = k0_pay3 (k0_pay1 x1 x0) x3 (k0_pay2 x2) := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero origin]
  simp only [View.readCov_unit_zero (S := S64x16384) _ origin, View.readCov_unit_zero (S := S64x1) _ origin,
    View.readAt_eq_ld, h1.read_unread, h2.read_unread, h3.read_unread, h4.read_unread,
    View.ld_unit_zero (S := S64x64) origin, View.ld_unit_zero (S := S64x16384) origin,
    View.ld_unit_zero (S := S1x64) origin, View.ld_unit_zero (S := S128x16384) origin]

/-- Later points: the output block is the block product of the carried values `xs0`, `xs1` with the adjacency rows `x3`. -/
theorem block_later (c : Dev nD) (i : grid0.Coords) (a1 : Memref sig .tc .vmem S64x16384 .f32) (h1 : a1.IsWhole) (a2 : Memref sig .tc .vmem S64x64 .f32) (h2 : a2.IsWhole) (a3 : Memref sig .tc .vmem S1x64 .f32) (h3 : a3.IsWhole) (a4 : Memref sig .tc .vmem S128x16384 .f32) (h4 : a4.IsWhole) (a5 : Memref sig .tc .vmem S64x128 .f32) (h5 : a5.IsWhole) (a6 : Memref sig .tc .vmem S64x16384 .bf16) (h6 : a6.IsWhole) (a7 : Memref sig .tc .vmem S64x1 .f32) (h7 : a7.IsWhole) (hc : ¬cond0_0 i)
    (x0 : Vec F S64x16384 .f32) (x1 : Vec F S64x64 .f32) (x2 : Vec F S1x64 .f32) (x3 : Vec F S128x16384 .f32) (xs0 : Vec F S64x16384 .bf16) (xs1 : Vec F S64x1 .f32) :
    out0_B_4 c i a1 h1 a2 h2 a3 h3 a4 h4 a5 h5 a6 h6 a7 h7 hc x0 x1 x2 x3 xs0 xs1 = k0_pay3 xs0 x3 xs1 := by
  unfold out0_B_4
  rw [View.read_writes_eq_canon _ _ _ (cover0_B_4 c i a1 h1 a2 h2 a3 h3 a4 h4 a5 h5 a6 h6 a7 h7 hc x0 x1 x2 x3 xs0 xs1)]
  unfold kernelRun0_B
  dsimp only
  sl_unfold_words
  rw [View.canon_unit_zero origin]
  simp only [View.readAt_eq_ld, h4.read_unread, h6.read_unread, h7.read_unread,
    View.ld_unit_zero (S := S128x16384) origin, View.ld_unit_zero (S := S64x16384) origin,
    View.ld_unit_zero (S := S64x1) origin]

end Cert.KernelIdeal.Found

end
-- ==== Proof.Carried.lean ====
/-
  The two carried buffers never change after the grid's first point, so every point computes its output block
  from the same two values.

  The first point stores the support (of the weights block and the transposed-features block, both of which are
  the whole arrays: their block index never moves) and the bias column. Every later point stores nothing into
  either buffer, so by induction on the point both buffers hold, after any point, exactly what the first point
  stored. The output block at a point is therefore always the block product of those two fixed values with that
  point's block of adjacency rows: at the first point because the body reads back what it has just stored, at a
  later point because it reads what was carried.
-/
import proofs.«110051_g12386685681967_cont_sun_m_1327_21_alg».proof.Proof.FoundPieces

noncomputable section

namespace Cert.KernelIdeal.Carried

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The grid has 128 points. -/
theorem points : cfg0.N = 128 := N_0

/-- The grid's first point. -/
abbrev first : Fin cfg0.N := ⟨0, by rw [points]; decide⟩

/-- The input blocks at a point, at their literal types: the transposed features, the weights, the bias row, and
    the point's 128 adjacency rows. -/
abbrev featTBlk (c : Dev nD) (t : Fin cfg0.N) : Vec F S64x16384 .f32 := iblk m c 0 t
abbrev wtBlk (c : Dev nD) (t : Fin cfg0.N) : Vec F S64x64 .f32 := iblk m c 1 t
abbrev biasBlk (c : Dev nD) (t : Fin cfg0.N) : Vec F S1x64 .f32 := iblk m c 2 t
abbrev adjBlk (c : Dev nD) (t : Fin cfg0.N) : Vec F S128x16384 .f32 := iblk m c 3 t

/-- The support the first point stores, and the bias column it stores. -/
abbrev supp (c : Dev nD) : Vec F S64x16384 .bf16 := k0_pay1 (wtBlk m c first) (featTBlk m c first)
abbrev biasCol (c : Dev nD) : Vec F S64x1 .f32 := k0_pay2 (biasBlk m c first)

/-- After ANY point the two carried buffers hold what the first point stored: the first point stores them, every
    later point leaves them as the point before left them. -/
theorem carried_eq (c : Dev nD) : ∀ (n : ℕ) (h : n < cfg0.N),
    (outsAt0 m c n h).2.1 = supp m c ∧ (outsAt0 m c n h).2.2 = biasCol m c
  | 0, h => by
    have e := outsAt0_A m c ⟨0, h⟩ rfl
    constructor
    · show (outsAt0 m c (⟨0, h⟩ : Fin cfg0.N).val (⟨0, h⟩ : Fin cfg0.N).isLt).2.1 = _
      rw [e]; dsimp only
      exact Found.support_first (F := F) c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr rfl) (iblk m c 0 first) (iblk m c 1 first) (iblk m c 2 first) (iblk m c 3 first)
    · show (outsAt0 m c (⟨0, h⟩ : Fin cfg0.N).val (⟨0, h⟩ : Fin cfg0.N).isLt).2.2 = _
      rw [e]; dsimp only
      exact Found.bias_first (F := F) c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr rfl) (iblk m c 0 first) (iblk m c 1 first) (iblk m c 2 first) (iblk m c 3 first)
  | n + 1, h => by
    have hN : cfg0.N = 128 := points
    have hB : ¬(⟨n + 1, h⟩ : Fin cfg0.N).val % 128 = 0 := by dsimp only; omega
    have e := outsAt0_B m c ⟨n + 1, h⟩ hB
    have ih := carried_eq c n (Nat.lt_of_succ_lt h)
    constructor
    · show (outsAt0 m c (⟨n + 1, h⟩ : Fin cfg0.N).val (⟨n + 1, h⟩ : Fin cfg0.N).isLt).2.1 = _
      rw [e]; dsimp only [sout0_B_0]
      exact ih.1
    · show (outsAt0 m c (⟨n + 1, h⟩ : Fin cfg0.N).val (⟨n + 1, h⟩ : Fin cfg0.N).isLt).2.2 = _
      rw [e]; dsimp only [sout0_B_1]
      exact ih.2

/-- The output block a point leaves: the block product of the two fixed carried values with the point's adjacency
    rows — at the first point from what it has just stored, at a later point from what was carried. -/
theorem block_eq (c : Dev nD) (t : Fin cfg0.N) :
    (outsAt0 m c t.val t.isLt).1 = k0_pay3 (supp m c) (adjBlk m c t) (biasCol m c) := by
  have hN : cfg0.N = 128 := points
  by_cases h0 : t.val % 128 = 0
  · obtain rfl : t = first := Fin.ext (by have := t.isLt; show t.val = 0; omega)
    rw [outsAt0_A m c first h0]; dsimp only
    exact Found.block_first (F := F) c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr h0) (iblk m c 0 first) (iblk m c 1 first) (iblk m c 2 first) (iblk m c 3 first)
  · have hp : t.val - 1 < cfg0.N := Nat.lt_of_le_of_lt (Nat.sub_le _ _) t.isLt
    have ih := carried_eq m c (t.val - 1) hp
    rw [outsAt0_B m c t h0]; dsimp only
    rw [Found.block_later (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) hp).2.1 (outsAt0 m c (t.val - 1) hp).2.2, ih.1, ih.2]

end Cert.KernelIdeal.Carried

end
-- ==== Proof.AtEntry.lean ====
/-
  The body's three stored values, read at one entry over the extended reals, where every float operation is
  the exact one and a change of float format is the identity.

    * The support buffer's value at `(o, n)`: the matrix product contracts the FIRST axis of both operands (the
      weights `[d, o]` and the transposed features `[d, n]`) into a zero accumulator, so it is
      `∑ d, w[d, o] · xT[d, n]`; narrowing it to the carried buffer's format changes nothing.
    * The bias buffer's value at `(o, 0)`: the bias row `[0, o]` transposed, so `b[0, o]`.
    * The output block's value at `(o, r)`: the matrix product contracts the SECOND axis of both operands (the
      carried support `[o, n]` and the adjacency rows `[r, n]`) into a zero accumulator, and the bias column is
      broadcast along the block's rows and added: `(∑ n, s[o, n] · a[r, n]) + c[o, 0]`.
-/
import proofs.«110051_g12386685681967_cont_sun_m_1327_21_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AtEntry

open Cert.KernelIdeal Cert.KernelIdeal.Gen
open Idealize.ShloMosaic Idealize.ShloMosaic.ValueIdx

/-! ## The support product: both operands contracted along their first axis -/

theorem supp_lhs_0 (j : S64x16384.Idx) (q : dot_S64x64_S64x16384_S64x16384_0_0_1_1_n_n.contr.Idx) :
    (dot_S64x64_S64x16384_S64x16384_0_0_1_1_n_n.lhsIdx j q 0).val = (q ⟨0, by decide⟩).val :=
  dot_S64x64_S64x16384_S64x16384_0_0_1_1_n_n.lhsIdx_val_of_single rfl j q
theorem supp_lhs_1 (j : S64x16384.Idx) (q : dot_S64x64_S64x16384_S64x16384_0_0_1_1_n_n.contr.Idx) :
    (dot_S64x64_S64x16384_S64x16384_0_0_1_1_n_n.lhsIdx j q 1).val = (j 0).val := by
  unfold DotDims.lhsIdx
  rw [dif_neg (show ¬(1 : Fin S64x64.rank) ∈ dot_S64x64_S64x16384_S64x16384_0_0_1_1_n_n.lhsBatch by decide), dif_pos (show (1 : Fin S64x64.rank) ∈ dot_S64x64_S64x16384_S64x16384_0_0_1_1_n_n.lhsNonContracting by decide)]
  rfl
theorem supp_rhs_0 (j : S64x16384.Idx) (q : dot_S64x64_S64x16384_S64x16384_0_0_1_1_n_n.contr.Idx) :
    (dot_S64x64_S64x16384_S64x16384_0_0_1_1_n_n.rhsIdx j q 0).val = (q ⟨0, by decide⟩).val :=
  dot_S64x64_S64x16384_S64x16384_0_0_1_1_n_n.rhsIdx_val_of_single rfl j q
theorem supp_rhs_1 (j : S64x16384.Idx) (q : dot_S64x64_S64x16384_S64x16384_0_0_1_1_n_n.contr.Idx) :
    (dot_S64x64_S64x16384_S64x16384_0_0_1_1_n_n.rhsIdx j q 1).val = (j 1).val := by
  unfold DotDims.rhsIdx
  rw [dif_neg (show ¬(1 : Fin S64x16384.rank) ∈ dot_S64x64_S64x16384_S64x16384_0_0_1_1_n_n.rhsBatch by decide), dif_pos (show (1 : Fin S64x16384.rank) ∈ dot_S64x64_S64x16384_S64x16384_0_0_1_1_n_n.rhsNonContracting by decide)]
  rfl

/-- The support product into zero, at `(o, n)`: the sum over the input features `d` of `w[d, o] · xT[d, n]`. -/
theorem supp_product (wv : FVec Ideal S64x64 .f32) (xt : FVec Ideal S64x16384 .f32) (o : Fin 64) (n : Fin 16384) :
    matmul dot_S64x64_S64x16384_S64x16384_0_0_1_1_n_n none wv xt (constant (F := Ideal) S64x16384 .f32 0x00000000#32) (ix2 o n)
      = ∑ d : Fin 64, wv (ix2 d o) * xt (ix2 d n) := by
  simp only [matmul]
  rw [Ideal.matmul_constant_zero_apply, ← Equiv.sum_comp (contrEquiv1 dot_S64x64_S64x16384_S64x16384_0_0_1_1_n_n 64 rfl rfl).symm]
  refine Finset.sum_congr rfl fun k _ => ?_
  have hk := contrEquiv1_symm_val dot_S64x64_S64x16384_S64x16384_0_0_1_1_n_n 64 rfl rfl k
  have el : dot_S64x64_S64x16384_S64x16384_0_0_1_1_n_n.lhsIdx (ix2 o n) ((contrEquiv1 dot_S64x64_S64x16384_S64x16384_0_0_1_1_n_n 64 rfl rfl).symm k) = ix2 k o := funext fun a => Fin.ext (by
    match a with
    | ⟨0, _⟩ => exact (supp_lhs_0 _ _).trans hk
    | ⟨1, _⟩ => exact supp_lhs_1 _ _)
  have er : dot_S64x64_S64x16384_S64x16384_0_0_1_1_n_n.rhsIdx (ix2 o n) ((contrEquiv1 dot_S64x64_S64x16384_S64x16384_0_0_1_1_n_n 64 rfl rfl).symm k) = ix2 k n := funext fun a => Fin.ext (by
    match a with
    | ⟨0, _⟩ => exact (supp_rhs_0 _ _).trans hk
    | ⟨1, _⟩ => exact supp_rhs_1 _ _)
  rw [el, er]

/-- The support buffer's value at `(o, n)`. -/
theorem supp_apply (wv : FVec Ideal S64x64 .f32) (xt : FVec Ideal S64x16384 .f32) (o : Fin 64) (n : Fin 16384) :
    k0_pay1 (F := Ideal) wv xt (ix2 o n) = ∑ d : Fin 64, wv (ix2 d o) * xt (ix2 d n) := by
  unfold k0_pay1
  simp only [shapeCast_self]
  exact supp_product wv xt o n

/-! ## The bias column -/

/-- The bias buffer's value at `(o, 0)`: the bias row at `(0, o)`. -/
theorem biasCol_apply (bv : FVec Ideal S1x64 .f32) (o : Fin 64) (z : Fin 1) :
    k0_pay2 (F := Ideal) bv (ix2 o z) = bv (ix2 z o) := by
  unfold k0_pay2
  simp only [shapeCast_self]
  exact transpose_ix2_apply bv transposes_S1x64_p1_0_S64x1 o z

/-! ## The block product: both operands contracted along their second axis -/

theorem block_lhs_0 (j : S64x128.Idx) (q : dot_S64x16384_S128x16384_S64x128_1_1_0_0_n_n.contr.Idx) :
    (dot_S64x16384_S128x16384_S64x128_1_1_0_0_n_n.lhsIdx j q 0).val = (j 0).val := by
  unfold DotDims.lhsIdx
  rw [dif_neg (show ¬(0 : Fin S64x16384.rank) ∈ dot_S64x16384_S128x16384_S64x128_1_1_0_0_n_n.lhsBatch by decide), dif_pos (show (0 : Fin S64x16384.rank) ∈ dot_S64x16384_S128x16384_S64x128_1_1_0_0_n_n.lhsNonContracting by decide)]
  rfl
theorem block_lhs_1 (j : S64x128.Idx) (q : dot_S64x16384_S128x16384_S64x128_1_1_0_0_n_n.contr.Idx) :
    (dot_S64x16384_S128x16384_S64x128_1_1_0_0_n_n.lhsIdx j q 1).val = (q ⟨0, by decide⟩).val :=
  dot_S64x16384_S128x16384_S64x128_1_1_0_0_n_n.lhsIdx_val_of_single rfl j q
theorem block_rhs_0 (j : S64x128.Idx) (q : dot_S64x16384_S128x16384_S64x128_1_1_0_0_n_n.contr.Idx) :
    (dot_S64x16384_S128x16384_S64x128_1_1_0_0_n_n.rhsIdx j q 0).val = (j 1).val := by
  unfold DotDims.rhsIdx
  rw [dif_neg (show ¬(0 : Fin S128x16384.rank) ∈ dot_S64x16384_S128x16384_S64x128_1_1_0_0_n_n.rhsBatch by decide), dif_pos (show (0 : Fin S128x16384.rank) ∈ dot_S64x16384_S128x16384_S64x128_1_1_0_0_n_n.rhsNonContracting by decide)]
  rfl
theorem block_rhs_1 (j : S64x128.Idx) (q : dot_S64x16384_S128x16384_S64x128_1_1_0_0_n_n.contr.Idx) :
    (dot_S64x16384_S128x16384_S64x128_1_1_0_0_n_n.rhsIdx j q 1).val = (q ⟨0, by decide⟩).val :=
  dot_S64x16384_S128x16384_S64x128_1_1_0_0_n_n.rhsIdx_val_of_single rfl j q

/-- The block product into zero, at `(o, r)`: the sum over the nodes `n` of `s[o, n] · a[r, n]`. -/
theorem block_product (sv : FVec Ideal S64x16384 .bf16) (av : FVec Ideal S128x16384 .f32) (o : Fin 64) (r : Fin 128) :
    matmul dot_S64x16384_S128x16384_S64x128_1_1_0_0_n_n none sv av (constant (F := Ideal) S64x128 .f32 0x00000000#32) (ix2 o r)
      = ∑ n : Fin 16384, sv (ix2 o n) * av (ix2 r n) := by
  simp only [matmul]
  rw [Ideal.matmul_constant_zero_apply, ← Equiv.sum_comp (contrEquiv1 dot_S64x16384_S128x16384_S64x128_1_1_0_0_n_n 16384 rfl rfl).symm]
  refine Finset.sum_congr rfl fun k _ => ?_
  have hk := contrEquiv1_symm_val dot_S64x16384_S128x16384_S64x128_1_1_0_0_n_n 16384 rfl rfl k
  have el : dot_S64x16384_S128x16384_S64x128_1_1_0_0_n_n.lhsIdx (ix2 o r) ((contrEquiv1 dot_S64x16384_S128x16384_S64x128_1_1_0_0_n_n 16384 rfl rfl).symm k) = ix2 o k := funext fun a => Fin.ext (by
    match a with
    | ⟨0, _⟩ => exact block_lhs_0 _ _
    | ⟨1, _⟩ => exact (block_lhs_1 _ _).trans hk)
  have er : dot_S64x16384_S128x16384_S64x128_1_1_0_0_n_n.rhsIdx (ix2 o r) ((contrEquiv1 dot_S64x16384_S128x16384_S64x128_1_1_0_0_n_n 16384 rfl rfl).symm k) = ix2 r k := funext fun a => Fin.ext (by
    match a with
    | ⟨0, _⟩ => exact block_rhs_0 _ _
    | ⟨1, _⟩ => exact (block_rhs_1 _ _).trans hk)
  rw [el, er]

/-- A column broadcast along a block's rows reads, at `(o, r)`, the column at `(o, 0)`. -/
theorem column_bcast (cv : FVec Ideal S64x1 .f32) (o : Fin 64) (r : Fin 128) :
    broadcastTo S64x128 cv broadcasts_S64x1_S64x128 (ix2 o r) = cv (ix2 o (0 : Fin 1)) := by
  refine broadcastTo_apply cv broadcasts_S64x1_S64x128 (ix2 o r) (ix2 o (0 : Fin 1)) fun ax => ?_
  match ax with
  | ⟨0, _⟩ => show o.val = if (64 : Nat) = 1 then 0 else o.val; rw [if_neg (by decide)]
  | ⟨1, _⟩ => show 0 = if (1 : Nat) = 1 then 0 else r.val; rw [if_pos rfl]

/-- The output block's value at `(o, r)`. -/
theorem block_apply (sv : FVec Ideal S64x16384 .bf16) (av : FVec Ideal S128x16384 .f32) (cv : FVec Ideal S64x1 .f32)
    (o : Fin 64) (r : Fin 128) :
    k0_pay3 (F := Ideal) sv av cv (ix2 o r) = (∑ n : Fin 16384, sv (ix2 o n) * av (ix2 r n)) + cv (ix2 o (0 : Fin 1)) := by
  show matmul dot_S64x16384_S128x16384_S64x128_1_1_0_0_n_n none sv av (constant (F := Ideal) S64x128 .f32 0x00000000#32) (ix2 o r)
      + broadcastTo S64x128 cv broadcasts_S64x1_S64x128 (ix2 o r) = _
  rw [block_product, column_bcast]

end Cert.KernelIdeal.AtEntry

end
-- ==== Proof.Blocks.lean ====
/-
  What the kernel's windows read, entry by entry, in terms of the four argument arrays.

  Two of the region's arrays are written by host operations before it: the features transposed (so entry
  `(d, n)` of that array is `x[n, d]`) and the bias as a one-row matrix (entry `(0, o)` is `b[o]`). The
  weights and the adjacency are the arguments themselves.

  The transposed features, the weights and the bias row are each ONE block, whose index never moves, so at every
  point their blocks are those whole arrays. The adjacency is cut into 128 blocks of 128 rows: at point `t`, row
  `r` of the block is row `128·t + r` of the array. (The output, feature-major, is cut the same way along its
  columns.)

  From these, the two values the first point stores are the layer's own: the support buffer at `(o, n)` is the
  feature-major support, and the bias buffer at `(o, 0)` is `b[o]`.
-/
import proofs.«110051_g12386685681967_cont_sun_m_1327_21_alg».proof.Proof.Carried
import proofs.«110051_g12386685681967_cont_sun_m_1327_21_alg».proof.Proof.AtEntry
import proofs.«110051_g12386685681967_cont_sun_m_1327_21_alg».proof.Proof.LayerSpec
import Idealize.ShloMosaic.Lib.StableHlo.Run

noncomputable section

open scoped BigOperators

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The four argument arrays on core `c`. -/
abbrev feat (c : Dev nD) : S16384x64.Idx → EReal := m ((c : Thread nD τ).loc main_arg0)
abbrev adjc (c : Dev nD) : S16384x16384.Idx → EReal := m ((c : Thread nD τ).loc main_arg1)
abbrev wgt (c : Dev nD) : S64x64.Idx → EReal := m ((c : Thread nD τ).loc main_arg2)
abbrev bias (c : Dev nD) : S64.Idx → EReal := m ((c : Thread nD τ).loc main_arg3)

/-- Where each window's block sits at point `t`: the first three never move, the adjacency's row block and the
    output's column block are the point's own. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- Row (or column) `r` of point `t`'s block is row (or column) `128·t + r` of the array. -/
def reach (t : Fin cfg0.N) (r : Fin 128) : Fin 16384 :=
  ⟨128 * t.val + r.val, by have := t.isLt; have hN : cfg0.N = 128 := N_0; have := r.isLt; omega⟩

/-! ## The arrays as the region finds them -/

/-- The region finds the features transposed. -/
theorem featT_entry (c : Dev nD) :
    (V m c main_call0_v0 : S64x16384.Idx → EReal) = transpose S64x16384 [1, 0] (feat m c) transposes_S16384x64_S64x16384_1_0 := by
  show StableHlo.after hostOps0 (fun b => m (c, b)) (Proc.devRef .tc main_call0_v0) = _
  after_results
  rfl

/-- The region finds the bias as a one-row matrix. -/
theorem biasRow_entry (c : Dev nD) :
    (V m c main_call0_v1 : S1x64.Idx → EReal) = shapeCast S1x64 (bias m c) shapeCasts_S64_S1x64 := by
  show StableHlo.after hostOps0 (fun b => m (c, b)) (Proc.devRef .tc main_call0_v1) = _
  after_results
  rfl

/-! ## The blocks, entry by entry -/

/-- The transposed-features block at `(d, n)`: `x[n, d]`. -/
theorem featT_read (c : Dev nD) (t : Fin cfg0.N) (d : Fin 64) (n : Fin 16384) :
    Carried.featTBlk m c t (ix2 d n) = feat m c (ix2 n d) := by
  obtain ⟨e0, e1, -⟩ := block_index t
  have e : ((cfg0.win 0).blk t).view.emb (ix2 d n) = (ix2 d n : S64x16384.Idx) := by
    funext a; apply Fin.ext
    match a with
    | ⟨0, _⟩ => show win0_0.index t (0 : Fin 2) * 64 + 1 * d.val = d.val; omega
    | ⟨1, _⟩ => show win0_0.index t (1 : Fin 2) * 16384 + 1 * n.val = n.val; omega
  show V m c main_call0_v0 (((cfg0.win 0).blk t).view.emb (ix2 d n)) = _
  rw [e, featT_entry]
  exact transpose_ix2_apply (feat m c) transposes_S16384x64_S64x16384_1_0 d n

/-- The weights block at `(d, o)`: `w[d, o]`. -/
theorem wgt_read (c : Dev nD) (t : Fin cfg0.N) (d : Fin 64) (o : Fin 64) :
    Carried.wtBlk m c t (ix2 d o) = wgt m c (ix2 d o) := by
  obtain ⟨-, -, e0, e1, -⟩ := block_index t
  have e : ((cfg0.win 1).blk t).view.emb (ix2 d o) = (ix2 d o : S64x64.Idx) := by
    funext a; apply Fin.ext
    match a with
    | ⟨0, _⟩ => show win0_1.index t (0 : Fin 2) * 64 + 1 * d.val = d.val; omega
    | ⟨1, _⟩ => show win0_1.index t (1 : Fin 2) * 64 + 1 * o.val = o.val; omega
  show V m c main_arg2 (((cfg0.win 1).blk t).view.emb (ix2 d o)) = _
  rw [e, V_main_arg2]

/-- The bias-row block at `(0, o)`: `b[o]`. -/
theorem biasRow_read (c : Dev nD) (t : Fin cfg0.N) (o : Fin 64) :
    Carried.biasBlk m c t (ix2 (0 : Fin 1) o) = bias m c (ix1 o) := by
  obtain ⟨-, -, -, -, e0, e1, -⟩ := block_index t
  have e : ((cfg0.win 2).blk t).view.emb (ix2 (0 : Fin 1) o) = (ix2 (0 : Fin 1) o : S1x64.Idx) := by
    funext a; apply Fin.ext
    match a with
    | ⟨0, _⟩ => show win0_2.index t (0 : Fin 2) * 1 + 1 * 0 = 0; omega
    | ⟨1, _⟩ => show win0_2.index t (1 : Fin 2) * 64 + 1 * o.val = o.val; omega
  show V m c main_call0_v1 (((cfg0.win 2).blk t).view.emb (ix2 (0 : Fin 1) o)) = _
  rw [e, biasRow_entry]
  exact shapeCast_a_1a_apply (bias m c) shapeCasts_S64_S1x64 (0 : Fin 1) o

/-- Point `t`'s adjacency block at `(r, n)`: row `128·t + r` of the adjacency, column `n`. -/
theorem adj_read (c : Dev nD) (t : Fin cfg0.N) (r : Fin 128) (n : Fin 16384) :
    Carried.adjBlk m c t (ix2 r n) = adjc m c (ix2 (reach t r) n) := by
  obtain ⟨-, -, -, -, -, -, e0, e1, -⟩ := block_index t
  have e : ((cfg0.win 3).blk t).view.emb (ix2 r n) = (ix2 (reach t r) n : S16384x16384.Idx) := by
    funext a; apply Fin.ext
    match a with
    | ⟨0, _⟩ => show win0_3.index t (0 : Fin 2) * 128 + 1 * r.val = 128 * t.val + r.val; omega
    | ⟨1, _⟩ => show win0_3.index t (1 : Fin 2) * 16384 + 1 * n.val = n.val; omega
  show V m c main_arg1 (((cfg0.win 3).blk t).view.emb (ix2 r n)) = _
  rw [e, V_main_arg1]

/-! ## The two carried values are the layer's own -/

/-- The support buffer at `(o, n)` is the feature-major support of the features and the weights. -/
theorem supp_entry (c : Dev nD) (o : Fin 64) (n : Fin 16384) :
    Carried.supp m c (ix2 o n) = Cert.Layer.supportT (feat m c) (wgt m c) o n := by
  show k0_pay1 (F := Ideal) (Carried.wtBlk m c Carried.first) (Carried.featTBlk m c Carried.first) (ix2 o n) = _
  rw [AtEntry.supp_apply]
  unfold Cert.Layer.supportT
  exact Finset.sum_congr rfl fun d _ => by rw [wgt_read, featT_read]

/-- The bias buffer at `(o, 0)` is `b[o]`. -/
theorem biasCol_entry (c : Dev nD) (o : Fin 64) :
    Carried.biasCol m c (ix2 o (0 : Fin 1)) = bias m c (ix1 o) := by
  show k0_pay2 (F := Ideal) (Carried.biasBlk m c Carried.first) (ix2 o (0 : Fin 1)) = _
  rw [AtEntry.biasCol_apply, biasRow_read]

end Cert.KernelIdeal.Blocks

end
-- ==== Proof.Result.lean ====
/-
  The kernel computes the layer.

  Inside the region the output is built feature-major, one block of 128 columns per grid point. Point `t` writes
  back the block product of the two carried values with its 128 adjacency rows; entry `(o, r)` of that block is
  `(∑ n, supportT[o, n] · adj[128·t + r, n]) + b[o]`, which is entry `(o, 128·t + r)` of the feature-major layer.
  Every column `p` lies in the block of point `p / 128`, and every point writes back, so after the region the
  whole output array is the feature-major layer. The one host operation after the region transposes it, and the
  transpose of the feature-major layer is the layer (the two arrangements agree entry by entry because products
  of extended reals commute).
-/
import proofs.«110051_g12386685681967_cont_sun_m_1327_21_alg».proof.Proof.Blocks
import Idealize.ShloMosaic.Lib.Pipeline.Value
import Idealize.ShloMosaic.Lib.StableHlo.Run

noncomputable section

open scoped BigOperators

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The feature-major layer of core `c`'s arguments, as contents of the region's output array. -/
abbrev layerT (c : Dev nD) : Buf (Elt Ideal) ((c : Thread nD τ).loc main_call0_v2) :=
  Cert.Layer.layerT (Blocks.feat m c) (Blocks.adjc m c) (Blocks.wgt m c) (Blocks.bias m c)

/-- The layer of core `c`'s arguments, as contents of the result. -/
abbrev layer (c : Dev nD) : Buf (Elt Ideal) ((c : Thread nD τ).loc main_v0) :=
  Cert.Layer.layer (Blocks.feat m c) (Blocks.adjc m c) (Blocks.wgt m c) (Blocks.bias m c)

/-- WHAT POINT `t` WRITES BACK is block `t` of the feature-major layer. -/
theorem flushed_eq (c : Dev nD) (t : Fin cfg0.N) (_ : (cfg0.win 4).flush t = true) :
    (dats m 0 c).flushed 4 t = ((cfg0.win 4).blk t).view.read (Elt Ideal) (layerT m c) := by
  obtain ⟨-, -, -, -, -, -, -, -, e0, e1⟩ := Blocks.block_index t
  show (cfg0.win 4).cut (grid0.coords t) ((dats m 0 c).after 4 t) = _
  rw [after0_4, Carried.block_eq]
  funext j
  obtain ⟨o, r, rfl⟩ : ∃ (o : Fin 64) (r : Fin 128), j = (ix2 o r : S64x128.Idx) := ⟨j 0, j 1, eq_ix2 (n0 := 64) (n1 := 128) j⟩
  have e : ((cfg0.win 4).blk t).view.emb (ix2 o r) = (ix2 o (Blocks.reach t r) : S64x16384.Idx) := by
    funext a; apply Fin.ext
    match a with
    | ⟨0, _⟩ => show win0_4.index t (0 : Fin 2) * 64 + 1 * o.val = o.val; omega
    | ⟨1, _⟩ => show win0_4.index t (1 : Fin 2) * 128 + 1 * r.val = 128 * t.val + r.val; omega
  show k0_pay3 (F := Ideal) (Carried.supp m c) (Carried.adjBlk m c t) (Carried.biasCol m c) (ix2 o r)
      = layerT m c (((cfg0.win 4).blk t).view.emb (ix2 o r))
  rw [e, AtEntry.block_apply, Blocks.biasCol_entry]
  show _ = Cert.Layer.entryT (Blocks.feat m c) (Blocks.adjc m c) (Blocks.wgt m c) (Blocks.bias m c) o (Blocks.reach t r)
  unfold Cert.Layer.entryT
  refine congrArg (· + Blocks.bias m c (ix1 o)) (Finset.sum_congr rfl fun n _ => ?_)
  rw [Blocks.supp_entry, Blocks.adj_read]

/-- An index of the output array is in point `t`'s block iff each coordinate is in the block's range on its axis. -/
theorem mem_block (t : Fin cfg0.N) (i : S64x16384.Idx) :
    i ∈ ((cfg0.win 4).blk t).view.set ↔ ∀ a : Fin 2, win0_4.index t a * S64x128.size a ≤ (i a).val ∧ (i a).val < win0_4.index t a * S64x128.size a + S64x128.size a := by
  show i ∈ ((View.whole main_call0_v2).slice (win0_4.rect t)).set ↔ _
  rw [View.set_slice_whole, Rect.mem_set_unit]
  exact Iff.rfl

/-- Every entry of the output array lies in the block of the point its column falls in, and that point writes back. -/
theorem covered (i : S64x16384.Idx) :
    ∃ t : Fin cfg0.N, (cfg0.win 4).flush t = true ∧ i ∈ ((cfg0.win 4).blk t).view.set := by
  have hN : cfg0.N = 128 := N_0
  have h0 : (i 0).val < 64 := (i 0).isLt
  have h1 : (i 1).val < 16384 := (i 1).isLt
  obtain ⟨t, ht⟩ : ∃ t : Fin cfg0.N, t.val = (i 1).val / 128 := ⟨⟨(i 1).val / 128, by rw [hN]; omega⟩, rfl⟩
  obtain ⟨-, -, -, -, -, -, -, -, e0, e1⟩ := Blocks.block_index t
  refine ⟨t, flush0_4 t, ?_⟩
  rw [mem_block]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 128 ≤ (i 1).val ∧ (i 1).val < win0_4.index t (1 : Fin 2) * 128 + 128; omega

/-- After the region the output array is the feature-major layer. -/
theorem final (c : Dev nD) : (dats m 0 c).arrAt 4 cfg0.N = layerT m c :=
  (dats m 0 c).arrAt_eq_of_cover 4 (layerT m c) (flushed_eq m c) covered

/-- After the host operation that follows the region — the transpose of the output array — the result is the layer. -/
theorem result_eq (c : Dev nD) :
    Pipeline.afterTail₀ cfgs (dats m) 0 (V0 m) [hostOps1] c main_v0 = layer m c := by
  have hw : Pipeline.withArrays (cfgs 0).spec c (V0 m c) (fun w => (dats m 0 c).arrAt w (cfgs 0).N) (Proc.devRef .tc main_call0_v2)
      = layerT m c :=
    (Pipeline.withArrays_arr spec0 launch0.win.arr_inj c _ _ 4).trans (final m c)
  unfold Pipeline.afterTail₀
  show StableHlo.after hostOps1 _ (Proc.devRef .tc main_v0) = _
  after_results
  show transpose S16384x64 [1, 0] (Pipeline.withArrays (cfgs 0).spec c (V0 m c) (fun w => (dats m 0 c).arrAt w (cfgs 0).N) (Proc.devRef .tc main_call0_v2))
      transposes_S64x16384_S16384x64_1_0 = layer m c
  refine (congrArg (fun x => transpose S16384x64 [1, 0] x transposes_S64x16384_S16384x64_1_0) hw).trans ?_
  funext i
  obtain ⟨p, o, rfl⟩ : ∃ (p : Fin 16384) (o : Fin 64), i = (ix2 p o : S16384x64.Idx) := ⟨i 0, i 1, eq_ix2 (n0 := 16384) (n1 := 64) i⟩
  exact (transpose_ix2_apply (layerT m c) transposes_S64x16384_S16384x64_1_0 p o).trans
    (Cert.Layer.layerT_apply (Blocks.feat m c) (Blocks.adjc m c) (Blocks.wgt m c) (Blocks.bias m c) o p)

/-- The run, read: every weakly fair execution terminates with the result at the layer of the arguments and the four
    arguments unchanged. -/
theorem run : θ_run defs (onTc (τ := τ) (main (F := Ideal))) ⟨m, fun _ => 0, ρ⟩ fun r => ∀ c : Dev nD,
      r.2.mem ((c.tc : Thread nD τ).loc main_v0) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.lean ====
/-
  A fused graph-convolution kernel against its plain reference: both compute, for node features `x`, a dense
  adjacency `adj`, weights `w` and a bias `b`, the layer `adj · (x · w) + b`.

  The reference forms the support `x · w`, multiplies the adjacency into it and adds the bias broadcast down the
  rows. The kernel works feature-major: around its one region it transposes `x` on the way in and the result on the
  way out; at the grid's first point it stores the support (as `wᵀ · xᵀ`) and the bias column into two buffers it
  carries across all 128 points, and at every point it multiplies the carried support into that point's 128 rows of
  the adjacency (contracting the node axis of both) and adds the bias column. Read over the extended reals, where a
  change of float format is the identity and every product is a plain sum, entry `(p, o)` of both results is

      (∑ n, adj[p, n] · (∑ d, x[n, d] · w[d, o])) + b[o],

  up to the order of the factors inside each product; products of extended reals commute, so the two agree at
  every input, the infinities included (nothing is distributed or cancelled, so finiteness is never used).

  The three frames are the programs' runs with the result forgotten (for the reference, its run read back); the
  idealization rewrote no operation, so there is nothing to preserve.
-/
import proofs.«110051_g12386685681967_cont_sun_m_1327_21_alg».proof.Defs
import proofs.«110051_g12386685681967_cont_sun_m_1327_21_alg».proof.Proof.Gen.Kernel
import proofs.«110051_g12386685681967_cont_sun_m_1327_21_alg».proof.Proof.Gen.Kernel.Skeleton
import proofs.«110051_g12386685681967_cont_sun_m_1327_21_alg».proof.Proof.Gen.Kernel.Launch
import proofs.«110051_g12386685681967_cont_sun_m_1327_21_alg».proof.Proof.Gen.Kernel.Points
import proofs.«110051_g12386685681967_cont_sun_m_1327_21_alg».proof.Proof.Gen.Kernel.Frame
import proofs.«110051_g12386685681967_cont_sun_m_1327_21_alg».proof.Proof.Gen.KernelIdeal
import proofs.«110051_g12386685681967_cont_sun_m_1327_21_alg».proof.Proof.Gen.KernelIdeal.Skeleton
import proofs.«110051_g12386685681967_cont_sun_m_1327_21_alg».proof.Proof.Gen.KernelIdeal.Launch
import proofs.«110051_g12386685681967_cont_sun_m_1327_21_alg».proof.Proof.Gen.KernelIdeal.Points
import proofs.«110051_g12386685681967_cont_sun_m_1327_21_alg».proof.Proof.Gen.KernelIdeal.Frame
import proofs.«110051_g12386685681967_cont_sun_m_1327_21_alg».proof.Proof.Gen.ReferenceIdeal
import proofs.«110051_g12386685681967_cont_sun_m_1327_21_alg».proof.Proof.Gen.Pre_finite_inputs
import proofs.«110051_g12386685681967_cont_sun_m_1327_21_alg».proof.Proof.Gen.ReferenceIdeal.Run
import proofs.«110051_g12386685681967_cont_sun_m_1327_21_alg».proof.Proof.Gen.ReferenceIdeal.Read
import proofs.«110051_g12386685681967_cont_sun_m_1327_21_alg».proof.Proof.RefIsLayer
import proofs.«110051_g12386685681967_cont_sun_m_1327_21_alg».proof.Proof.Result
import Idealize.ShloMosaic.Adequacy
import Idealize.ShloMosaic.Init

noncomputable section

namespace Cert.Proof

open Idealize.ShloMosaic Idealize.SL.Sem Cert.Kernel

/-- Over the extended reals the kernel's result ends at the layer of its arguments, and the reference's at the layer
    of arguments that agree with them: equal results, entry by entry. -/
theorem algebraic : Cert.algebraic_KernelIdeal_ReferenceIdeal := by
  intro m ρ m' ρ' _ hagree
  refine ⟨fun c => Cert.KernelIdeal.Result.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.AsLayer.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
